-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S5000x128 : Shape := ⟨2, ![5000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 117
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S1700000, .f32⟩
  | .hbm, ⟨68, _⟩ => ⟨S_, .f32⟩
  | .hbm, ⟨69, _⟩ => ⟨S100000, .f32⟩
  | .hbm, ⟨70, _⟩ => ⟨S1700000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .i1⟩
  | .hbm, ⟨75, _⟩ => ⟨S100000, .f32⟩
  | .hbm, ⟨76, _⟩ => ⟨S_, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x128, .f32⟩
  | .hbm, ⟨108, _⟩ => ⟨S1700000x1, .f32⟩
  | .hbm, ⟨109, _⟩ => ⟨S1700000x128, .f32⟩
  | .hbm, ⟨110, _⟩ => ⟨S1700000x128, .f32⟩
  | .hbm, ⟨111, _⟩ => ⟨S_, .f32⟩
  | .hbm, ⟨112, _⟩ => ⟨S100000x128, .f32⟩
  | .hbm, ⟨113, _⟩ => ⟨S1700000x1, .i32⟩
  | .hbm, ⟨114, _⟩ => ⟨S100000x128, .f32⟩
  | .hbm, ⟨115, _⟩ => ⟨S1x128, .f32⟩
  | .hbm, ⟨116, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_15 : Ref sig .tc := ⟨.hbm, 89, rfl⟩
abbrev main_v62 : Ref sig .tc := ⟨.hbm, 90, rfl⟩
abbrev main_v63 : Ref sig .tc := ⟨.hbm, 91, rfl⟩
abbrev main_c_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_17 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_19 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v83) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x128, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x128, .f32⟩
  | .hbm, ⟨112, _⟩ => ⟨S1700000x1, .f32⟩
  | .hbm, ⟨113, _⟩ => ⟨S1700000x128, .f32⟩
  | .hbm, ⟨114, _⟩ => ⟨S1700000x128, .f32⟩
  | .hbm, ⟨115, _⟩ => ⟨S_, .f32⟩
  | .hbm, ⟨116, _⟩ => ⟨S100000x128, .f32⟩
  | .hbm, ⟨117, _⟩ => ⟨S1700000x1, .i32⟩
  | .hbm, ⟨118, _⟩ => ⟨S100000x128, .f32⟩
  | .hbm, ⟨119, _⟩ => ⟨S1x128, .f32⟩
  | .hbm, ⟨120, _⟩ => ⟨S100000x128, .f32⟩
  | .hbm, ⟨121, _⟩ => ⟨S100000x128, .f32⟩
  | .hbm, ⟨122, _⟩ => ⟨S_, .f32⟩
  | .hbm, ⟨123, _⟩ => ⟨S100000x128, .f32⟩
  | .hbm, ⟨124, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two-layer graph convolution that both programs compute, written once as a function of the six arguments.

  Nodes are 0 … 99999, features have 128 columns. The edge list `e` has two rows of 1600000 node numbers; row 0 holds
  the sources and row 1 the targets. Every node also gets a self loop, so each row is followed by 0, 1, …, 99999
  (`endpoints`): 1700000 edges in all. A negative node number `j` counts from the end (`wrapIndex`: `j + 100000`);
  the gathers and scatters below are the host's own, with the host's treatment of numbers that are still out of range.

  One layer, for features `h` already multiplied by the layer's weight matrix:
    * `degree`        — the number of edges that point at each node (a scatter-add of ones),
    * `invSqrtDegree` — `1 / sqrt(degree)` where the degree is positive and `0` elsewhere,
    * `edgeWeight`    — for edge `(s, t)`: `invSqrtDegree s · invSqrtDegree t`,
    * `aggregate`     — node `t` receives the sum over its incoming edges `(s, t)` of `edgeWeight (s, t) · h[s, :]`,
    * `biasRelu`      — add the bias to every row and clamp below at zero.
  `linear` is the product with the weight matrix as a sum over the 128 inner positions, on the extended reals.
  `gcn` composes two layers.
-/
import proofs.«135520_j45586782880364_1_alg».proof.KernelIdeal
import proofs.«135520_j45586782880364_1_alg».proof.Proof.Gen.KernelIdeal
import Idealize.ShloMosaic.PureOps.Ideal
import Idealize.ShloMosaic.Lib.ValueIdx

noncomputable section

namespace Cert.Gcn

open Idealize.ShloMosaic Idealize.ShloMosaic.TcCoe Cert.KernelIdeal Cert.KernelIdeal.Gen

variable {F : FTy → Type} [FloatOps F]

/-- An array of node features, 100000 rows of 128. -/
abbrev Feat (F : FTy → Type) : Type := (⟨S100000x128, .f32⟩ : BufTy).Contents (Elt F)
/-- One node number per edge, the 100000 self loops included. -/
abbrev Ends (F : FTy → Type) : Type := (⟨S1700000, .i32⟩ : BufTy).Contents (Elt F)
/-- One number per edge. -/
abbrev PerEdge (F : FTy → Type) : Type := (⟨S1700000, .f32⟩ : BufTy).Contents (Elt F)
/-- One number per node. -/
abbrev PerNode (F : FTy → Type) : Type := (⟨S100000, .f32⟩ : BufTy).Contents (Elt F)

/-- Row 0 of the edge list followed by the self loops. -/
def sources (e : (⟨S2x1600000, .i32⟩ : BufTy).Contents (Elt F)) : Ends F :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Row 1 of the edge list followed by the self loops. -/
def targets (e : (⟨S2x1600000, .i32⟩ : BufTy).Contents (Elt F)) : Ends F :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative node number counts from the end: `j` becomes `j + 100000`. -/
def wrapIndex (ix : Ends F) : Ends F :=
  select (cmpi .slt ix (broadcastInDim S1700000 ![] bcast_S_S1700000 (constantI S_ 32 0#32)))
    (addi ix (broadcastInDim S1700000 ![] bcast_S_S1700000 (constantI S_ 32 100000#32))) ix

/-- The edge numbers as a column of one-entry index vectors, the form a gather or scatter takes them in. -/
def asColumn (ix : Ends F) : (⟨S1700000x1, .i32⟩ : BufTy).Contents (Elt F) :=
  broadcastInDim S1700000x1 ![0] bcast_S1700000_S1700000x1_0 ix

/-- How many edges point at each node: ones added at the targets. -/
def degree (dst : Ends F) : PerNode F :=
  Host.scatterAdd scatter_S100000_S1700000x1_S1700000_n_0_0_1
    (broadcastInDim S100000 ![] bcast_S_S100000 (constant S_ .f32 0x00000000#32)) (asColumn dst)
    (broadcastInDim S1700000 ![] bcast_S_S1700000 (constant S_ .f32 0x3F800000#32))

/-- `1 / sqrt(degree)` where the degree is positive, zero elsewhere. -/
def invSqrtDegree (dst : Ends F) : PerNode F :=
  select (cmpf .ogt (degree dst) (broadcastInDim S100000 ![] bcast_S_S100000 (constant S_ .f32 0x00000000#32)))
    (Host.rsqrt (degree dst)) (broadcastInDim S100000 ![] bcast_S_S100000 (id (constant S_ .f32 0x00000000#32)))

/-- The symmetric normalisation of an edge: the product of its two endpoints' `invSqrtDegree`. -/
def edgeWeight (src dst : Ends F) : PerEdge F :=
  mulf (Host.gather gather_S100000_S1700000x1_S1700000_n_0_n_n_0_1_1 (invSqrtDegree dst) (asColumn (wrapIndex src)))
    (Host.gather gather_S100000_S1700000x1_S1700000_n_0_n_n_0_1_1 (invSqrtDegree dst) (asColumn (wrapIndex dst)))

/-- Each node's sum, over its incoming edges, of the source's feature row times the edge's weight. -/
def aggregate (h : Feat F) (src dst : Ends F) : Feat F :=
  Host.scatterAdd scatter_S100000x128_S1700000x1_S1700000x128_1_0_0_1
    (broadcastInDim S100000x128 ![] bcast_S_S100000x128 (constant S_ .f32 0x00000000#32)) (asColumn dst)
    (mulf (Host.gather gather_S100000x128_S1700000x1_S1700000x128_1_0_n_n_0_1_1128 h (asColumn (wrapIndex src)))
      (broadcastInDim S1700000x128 ![0, 1] bcast_S1700000x1_S1700000x128_0_1
        (broadcastInDim S1700000x1 ![0] bcast_S1700000_S1700000x1_0 (edgeWeight src dst))))

/-- Add the bias (one number per column) to every row, then clamp below at zero. -/
def biasRelu (a : Feat F) (b : (⟨S128, .f32⟩ : BufTy).Contents (Elt F)) : Feat F :=
  fun i => FloatOps.maximumf (FloatOps.addf (a i) (b (ValueIdx.ix1 (i 1)))) (Scalar.ofBits .f32 0x00000000#32)

/-- The product with a weight matrix on the extended reals: entry `(r, q)` is the sum over `k` of `x[r, k] · w[k, q]`. -/
def linear (x : Feat Ideal) (w : (⟨S128x128, .f32⟩ : BufTy).Contents (Elt Ideal)) : Feat Ideal :=
  fun i => ∑ k : Fin 128, x (ValueIdx.ix2 (i 0) k) * w (ValueIdx.ix2 k (i 1))

/-- Two layers: multiply by the weights, aggregate over the graph, add the bias and clamp; twice. -/
def gcn (x : Feat Ideal) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) : Feat Ideal :=
  biasRelu (aggregate (linear (biasRelu (aggregate (linear x w1) (sources e) (targets e)) b1) w2) (sources e) (targets e)) b2

end Cert.Gcn

end
-- ==== Proof.HostStretches.lean ====
/-
  The kernel program's host operations, read as values. Between its four regions the program runs the same operations as
  the reference: before the first region it appends the self loops to the two rows of the edge list; after each product
  with a weight matrix it counts degrees, takes inverse square roots, forms the edge weights, gathers, scales and
  scatter-adds (`aggregate`), and reshapes the layer's 128 biases to a row for the region that follows. The contents at
  each boundary are named `W1`, `W2`, …, `W11`; this module reads the buffers the regions take, boundary by boundary, and
  follows the buffers that pass through untouched (the edge rows, the second layer's weights and bias).
-/
import proofs.«135520_j45586782880364_1_alg».proof.Proof.Gen.KernelIdeal.Frame
import proofs.«135520_j45586782880364_1_alg».proof.Proof.Spec
import Idealize.ShloMosaic.Lib.StableHlo.Run

noncomputable section

namespace Cert.Gcn.Host

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! ## Before the first region: the edge rows with their self loops; the arguments as launched -/

theorem W1_v3 (c : Dev nD) : W1 m ρ c (Proc.devRef .tc main_v3) = Cert.Gcn.sources (F := F) (m ((c : Thread nD τ).loc main_arg1)) := by
  show StableHlo.after hostOps0 (W0 m ρ c) (Proc.devRef .tc main_v3) = _
  after_results
  rfl
theorem W1_v6 (c : Dev nD) : W1 m ρ c (Proc.devRef .tc main_v6) = Cert.Gcn.targets (F := F) (m ((c : Thread nD τ).loc main_arg1)) := by
  show StableHlo.after hostOps0 (W0 m ρ c) (Proc.devRef .tc main_v6) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results

/-! ## Across the first region: it writes only its result -/

theorem W2_v3 (c : Dev nD) : W2 m ρ c (Proc.devRef .tc main_v3) = W1 m ρ c (Proc.devRef .tc main_v3) :=
  W2_of_ne m ρ c main_v3 (by decide)
theorem W2_v6 (c : Dev nD) : W2 m ρ c (Proc.devRef .tc main_v6) = W1 m ρ c (Proc.devRef .tc main_v6) :=
  W2_of_ne m ρ c main_v6 (by decide)
theorem W2_arg3 (c : Dev nD) : W2 m ρ c (Proc.devRef .tc main_arg3) = W1 m ρ c (Proc.devRef .tc main_arg3) :=
  W2_of_ne m ρ c main_arg3 (by decide)
theorem W2_arg4 (c : Dev nD) : W2 m ρ c (Proc.devRef .tc main_arg4) = W1 m ρ c (Proc.devRef .tc main_arg4) :=
  W2_of_ne m ρ c main_arg4 (by decide)
theorem W2_arg5 (c : Dev nD) : W2 m ρ c (Proc.devRef .tc main_arg5) = W1 m ρ c (Proc.devRef .tc main_arg5) :=
  W2_of_ne m ρ c main_arg5 (by decide)

/-! ## The first aggregation, and the first layer's bias as a row -/

set_option maxHeartbeats 4000000 in
theorem W5_v43 (c : Dev nD) : W5 m ρ c (Proc.devRef .tc main_v43)
    = Cert.Gcn.aggregate (F := F) (W2 m ρ c (Proc.devRef .tc main_v7)) (W2 m ρ c (Proc.devRef .tc main_v3)) (W2 m ρ c (Proc.devRef .tc main_v6)) := by
  show StableHlo.after hostOps1_2 (StableHlo.after hostOps1_1 (StableHlo.after hostOps1 (W2 m ρ c))) (Proc.devRef .tc main_v43) = _
  after_results_simp
  rfl
theorem W5_v44 (c : Dev nD) : W5 m ρ c (Proc.devRef .tc main_v44)
    = shapeCast S1x128 (W2 m ρ c (Proc.devRef .tc main_arg3)) shapeCasts_S128_S1x128 := by
  show StableHlo.after hostOps1_2 (StableHlo.after hostOps1_1 (StableHlo.after hostOps1 (W2 m ρ c))) (Proc.devRef .tc main_v44) = _
  after_results_simp
  rfl
theorem W5_v3 (c : Dev nD) : W5 m ρ c (Proc.devRef .tc main_v3) = W2 m ρ c (Proc.devRef .tc main_v3) := by
  show StableHlo.after hostOps1_2 (StableHlo.after hostOps1_1 (StableHlo.after hostOps1 (W2 m ρ c))) (Proc.devRef .tc main_v3) = _
  after_results_simp
theorem W5_v6 (c : Dev nD) : W5 m ρ c (Proc.devRef .tc main_v6) = W2 m ρ c (Proc.devRef .tc main_v6) := by
  show StableHlo.after hostOps1_2 (StableHlo.after hostOps1_1 (StableHlo.after hostOps1 (W2 m ρ c))) (Proc.devRef .tc main_v6) = _
  after_results_simp
theorem W5_arg4 (c : Dev nD) : W5 m ρ c (Proc.devRef .tc main_arg4) = W2 m ρ c (Proc.devRef .tc main_arg4) := by
  show StableHlo.after hostOps1_2 (StableHlo.after hostOps1_1 (StableHlo.after hostOps1 (W2 m ρ c))) (Proc.devRef .tc main_arg4) = _
  after_results_simp
theorem W5_arg5 (c : Dev nD) : W5 m ρ c (Proc.devRef .tc main_arg5) = W2 m ρ c (Proc.devRef .tc main_arg5) := by
  show StableHlo.after hostOps1_2 (StableHlo.after hostOps1_1 (StableHlo.after hostOps1 (W2 m ρ c))) (Proc.devRef .tc main_arg5) = _
  after_results_simp

/-! ## Across the second and third regions -/

theorem W6_v3 (c : Dev nD) : W6 m ρ c (Proc.devRef .tc main_v3) = W5 m ρ c (Proc.devRef .tc main_v3) :=
  W6_of_ne m ρ c main_v3 (by decide)
theorem W6_v6 (c : Dev nD) : W6 m ρ c (Proc.devRef .tc main_v6) = W5 m ρ c (Proc.devRef .tc main_v6) :=
  W6_of_ne m ρ c main_v6 (by decide)
theorem W6_arg4 (c : Dev nD) : W6 m ρ c (Proc.devRef .tc main_arg4) = W5 m ρ c (Proc.devRef .tc main_arg4) :=
  W6_of_ne m ρ c main_arg4 (by decide)
theorem W6_arg5 (c : Dev nD) : W6 m ρ c (Proc.devRef .tc main_arg5) = W5 m ρ c (Proc.devRef .tc main_arg5) :=
  W6_of_ne m ρ c main_arg5 (by decide)
theorem W7_v3 (c : Dev nD) : W7 m ρ c (Proc.devRef .tc main_v3) = W6 m ρ c (Proc.devRef .tc main_v3) :=
  W7_of_ne m ρ c main_v3 (by decide)
theorem W7_v6 (c : Dev nD) : W7 m ρ c (Proc.devRef .tc main_v6) = W6 m ρ c (Proc.devRef .tc main_v6) :=
  W7_of_ne m ρ c main_v6 (by decide)
theorem W7_arg5 (c : Dev nD) : W7 m ρ c (Proc.devRef .tc main_arg5) = W6 m ρ c (Proc.devRef .tc main_arg5) :=
  W7_of_ne m ρ c main_arg5 (by decide)

/-! ## The second aggregation, and the second layer's bias as a row -/

set_option maxHeartbeats 4000000 in
theorem W10_v82 (c : Dev nD) : W10 m ρ c (Proc.devRef .tc main_v82)
    = Cert.Gcn.aggregate (F := F) (W7 m ρ c (Proc.devRef .tc main_v46)) (W7 m ρ c (Proc.devRef .tc main_v3)) (W7 m ρ c (Proc.devRef .tc main_v6)) := by
  show StableHlo.after hostOps3_2 (StableHlo.after hostOps3_1 (StableHlo.after hostOps3 (W7 m ρ c))) (Proc.devRef .tc main_v82) = _
  after_results_simp
  rfl
theorem W10_v83 (c : Dev nD) : W10 m ρ c (Proc.devRef .tc main_v83)
    = shapeCast S1x128 (W7 m ρ c (Proc.devRef .tc main_arg5)) shapeCasts_S128_S1x128 := by
  show StableHlo.after hostOps3_2 (StableHlo.after hostOps3_1 (StableHlo.after hostOps3 (W7 m ρ c))) (Proc.devRef .tc main_v83) = _
  after_results_simp
  rfl

/-! ## The passing buffers, from the launch to where they are read -/

theorem sources_at2 (c : Dev nD) : W2 m ρ c (Proc.devRef .tc main_v3) = Cert.Gcn.sources (F := F) (m ((c : Thread nD τ).loc main_arg1)) :=
  (W2_v3 m ρ c).trans (W1_v3 m ρ c)
theorem targets_at2 (c : Dev nD) : W2 m ρ c (Proc.devRef .tc main_v6) = Cert.Gcn.targets (F := F) (m ((c : Thread nD τ).loc main_arg1)) :=
  (W2_v6 m ρ c).trans (W1_v6 m ρ c)
theorem bias1_at2 (c : Dev nD) : W2 m ρ c (Proc.devRef .tc main_arg3) = m ((c : Thread nD τ).loc main_arg3) :=
  (W2_arg3 m ρ c).trans (W1_arg3 m ρ c)
theorem weights2_at6 (c : Dev nD) : W6 m ρ c (Proc.devRef .tc main_arg4) = m ((c : Thread nD τ).loc main_arg4) :=
  (W6_arg4 m ρ c).trans ((W5_arg4 m ρ c).trans ((W2_arg4 m ρ c).trans (W1_arg4 m ρ c)))
theorem sources_at7 (c : Dev nD) : W7 m ρ c (Proc.devRef .tc main_v3) = Cert.Gcn.sources (F := F) (m ((c : Thread nD τ).loc main_arg1)) :=
  (W7_v3 m ρ c).trans ((W6_v3 m ρ c).trans ((W5_v3 m ρ c).trans (sources_at2 m ρ c)))
theorem targets_at7 (c : Dev nD) : W7 m ρ c (Proc.devRef .tc main_v6) = Cert.Gcn.targets (F := F) (m ((c : Thread nD τ).loc main_arg1)) :=
  (W7_v6 m ρ c).trans ((W6_v6 m ρ c).trans ((W5_v6 m ρ c).trans (targets_at2 m ρ c)))
theorem bias2_at7 (c : Dev nD) : W7 m ρ c (Proc.devRef .tc main_arg5) = m ((c : Thread nD τ).loc main_arg5) :=
  (W7_arg5 m ρ c).trans ((W6_arg5 m ρ c).trans ((W5_arg5 m ρ c).trans ((W2_arg5 m ρ c).trans (W1_arg5 m ρ c))))

end Cert.Gcn.Host

end
-- ==== Proof.Linear0.lean ====
/-
  The first weight multiplication, read as a value. The region walks the 100000 rows in 20 blocks of 5000; at block `t`
  its body multiplies rows `5000·t … 5000·t + 4999` of the features by the whole 128 × 128 weight matrix (the
  conversion to the short float format is the identity on the extended reals, the accumulator starts at zero) and writes
  the 5000 × 128 product back to the same rows of the result. Entry `(r, q)` of a block is the sum over `k` of
  `x[5000·t + r, k] · w[k, q]`, which is entry `(5000·t + r, q)` of `linear x w`; the 20 blocks tile the result, so the
  result array after the region is `linear x w` of the arrays the region found.
-/
import proofs.«135520_j45586782880364_1_alg».proof.Proof.Gen.KernelIdeal.Frame
import proofs.«135520_j45586782880364_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Linear0

open Idealize.ShloMosaic Idealize.ShloMosaic.TcCoe Idealize.SL.Sem Cert.KernelIdeal Cert.KernelIdeal.Gen
open Idealize.ShloMosaic.Pipeline (Dat)
open ValueIdx

/-! ## The body's product at an entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, q)` of what the body stores: the sum over the 128 inner positions of `x0[r, k] · x1[k, q]`. -/
theorem product_apply (x0 : Vec Ideal S5000x128 .f32) (x1 : Vec Ideal S128x128 .f32) (r : Fin 5000) (q : Fin 128) :
    k0_pay1 (F := Ideal) x0 x1 (ix2 r q) = ∑ k : Fin 128, x0 (ix2 r k) * x1 (ix2 k q) := by
  unfold k0_pay1
  -- where the body first casts the loaded block to the shape it already has, the cast moves nothing
  try simp only [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_inner _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- The features and the weights as the region finds them. -/
abbrev feats (c : Dev nD) : Vec Ideal S100000x128 .f32 := V c main_arg0
abbrev weights (c : Dev nD) : Vec Ideal S128x128 .f32 := V c main_arg2

theorem zeroOffsets : (![0, 0] : Fin 2 → Nat) = fun _ => 0 := funext fun a => by fin_cases a <;> rfl

/-- The printed block positions over the 20 grid points: the feature block and the result block sit at block row `t`,
    column block 0; the weights are always the one block at the origin. -/
theorem blockPositions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of `linear feats weights`. -/
theorem writtenBack (c : Dev nD) (t : Fin cfg0.N) :
    (dat0 V c).flushed 2 t = ((cfg0.win 2).blk t).view.read (Elt Ideal) (Cert.Gcn.linear (feats V c) (weights V c)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := blockPositions t
  funext j
  obtain ⟨r, q, rfl⟩ : ∃ (r : Fin 5000) (q : Fin 128), j = ix2 r q := ⟨j 0, j 1, eq_ix2 j⟩
  refine (product_apply _ _ r q).trans ?_
  change _ = ∑ k : Fin 128, feats V c (ix2 ((((cfg0.win 2).blk t).view.emb (ix2 r q)) 0) k) * weights V c (ix2 k ((((cfg0.win 2).blk t).view.emb (ix2 r q)) 1))
  refine Finset.sum_congr rfl fun k _ => ?_
  have hx : ((cfg0.win 0).blk t).view.emb (ix2 r k) = ix2 ((((cfg0.win 2).blk t).view.emb (ix2 r q)) 0) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hw : ((cfg0.win 1).blk t).view.emb (ix2 k q) = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (· * ·) (congrArg (feats V c) hx) (congrArg (weights V c) hw)

/-- A row-and-column position of the result lies in block `t` exactly when each coordinate lies in the block's range. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v7).slice (win0_2.rect t)).set ↔ _
  rw [View.set_slice_whole, Rect.mem_set_unit]
  exact Iff.rfl

/-- The 20 blocks tile the result: row `i` lies in block `i / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := blockPositions t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is `linear` of the features and weights the region found. -/
theorem result (c : Dev nD) : (dat0 V c).arrAt 2 cfg0.N = Cert.Gcn.linear (feats V c) (weights V c) :=
  (dat0 V c).arrAt_eq_of_cover 2 _ (fun t _ => writtenBack V c t) covered

end Cert.Gcn.Linear0

end
-- ==== Proof.Linear2.lean ====
/-
  The second weight multiplication, read as a value. The region walks the 100000 rows in 20 blocks of 5000; at block `t`
  its body multiplies rows `5000·t … 5000·t + 4999` of the features by the whole 128 × 128 weight matrix (the
  conversion to the short float format is the identity on the extended reals, the accumulator starts at zero) and writes
  the 5000 × 128 product back to the same rows of the result. Entry `(r, q)` of a block is the sum over `k` of
  `x[5000·t + r, k] · w[k, q]`, which is entry `(5000·t + r, q)` of `linear x w`; the 20 blocks tile the result, so the
  result array after the region is `linear x w` of the arrays the region found.
-/
import proofs.«135520_j45586782880364_1_alg».proof.Proof.Gen.KernelIdeal.Frame
import proofs.«135520_j45586782880364_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.Gcn.Linear2

open Idealize.ShloMosaic Idealize.ShloMosaic.TcCoe Idealize.SL.Sem Cert.KernelIdeal Cert.KernelIdeal.Gen
open Idealize.ShloMosaic.Pipeline (Dat)
open ValueIdx

/-! ## The body's product at an entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_inner (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_inner (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(r, q)` of what the body stores: the sum over the 128 inner positions of `x0[r, k] · x1[k, q]`. -/
theorem product_apply (x0 : Vec Ideal S5000x128 .f32) (x1 : Vec Ideal S128x128 .f32) (r : Fin 5000) (q : Fin 128) :
    k2_pay1 (F := Ideal) x0 x1 (ix2 r q) = ∑ k : Fin 128, x0 (ix2 r k) * x1 (ix2 k q) := by
  unfold k2_pay1
  -- where the body first casts the loaded block to the shape it already has, the cast moves nothing
  try simp only [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r q) ((ValueIdx.contrEquiv1 dot_S5000x128_S128x128_S5000x128_1_0_0_1_n_n 128 rfl rfl).symm k) = ix2 r k := funext fun a => Fin.ext (by
    match a with
    | ⟨0, _⟩ => exact lhs_row _ _
    | ⟨1, _⟩ => exact (lhs_inner _ _).trans hk)
  have er : dot_S5000x128_S128x128_S5000x128_1_0_0_1_n_n.rhsIdx (ix2 r q) ((ValueIdx.contrEquiv1 dot_S5000x128_S128x128_S5000x128_1_0_0_1_n_n 128 rfl rfl).symm k) = ix2 k q := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

/-- The features and the weights as the region finds them. -/
abbrev feats (c : Dev nD) : Vec Ideal S100000x128 .f32 := V c main_v45
abbrev weights (c : Dev nD) : Vec Ideal S128x128 .f32 := V c main_arg4

theorem zeroOffsets : (![0, 0] : Fin 2 → Nat) = fun _ => 0 := funext fun a => by fin_cases a <;> rfl

/-- The printed block positions over the 20 grid points: the feature block and the result block sit at block row `t`,
    column block 0; the weights are always the one block at the origin. -/
theorem blockPositions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of `linear feats weights`. -/
theorem writtenBack (c : Dev nD) (t : Fin cfg2.N) :
    (dat2 V c).flushed 2 t = ((cfg2.win 2).blk t).view.read (Elt Ideal) (Cert.Gcn.linear (feats V c) (weights V c)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨e0, e1, e2, e3, e4, e5⟩ := blockPositions t
  funext j
  obtain ⟨r, q, rfl⟩ : ∃ (r : Fin 5000) (q : Fin 128), j = ix2 r q := ⟨j 0, j 1, eq_ix2 j⟩
  refine (product_apply _ _ r q).trans ?_
  change _ = ∑ k : Fin 128, feats V c (ix2 ((((cfg2.win 2).blk t).view.emb (ix2 r q)) 0) k) * weights V c (ix2 k ((((cfg2.win 2).blk t).view.emb (ix2 r q)) 1))
  refine Finset.sum_congr rfl fun k _ => ?_
  have hx : ((cfg2.win 0).blk t).view.emb (ix2 r k) = ix2 ((((cfg2.win 2).blk t).view.emb (ix2 r q)) 0) k := by
    funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hw : ((cfg2.win 1).blk t).view.emb (ix2 k q) = ix2 k ((((cfg2.win 2).blk t).view.emb (ix2 r q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (· * ·) (congrArg (feats V c) hx) (congrArg (weights V c) hw)

/-- A row-and-column position of the result lies in block `t` exactly when each coordinate lies in the block's range. -/
theorem mem_block (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The 20 blocks tile the result: row `i` lies in block `i / 5000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := blockPositions t
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is `linear` of the features and weights the region found. -/
theorem result (c : Dev nD) : (dat2 V c).arrAt 2 cfg2.N = Cert.Gcn.linear (feats V c) (weights V c) :=
  (dat2 V c).arrAt_eq_of_cover 2 _ (fun t _ => writtenBack V c t) covered

end Cert.Gcn.Linear2

end
-- ==== Proof.BiasRow.lean ====
/-
  The bias-and-clamp step with the bias held as ONE ROW of 128 numbers (a 1 × 128 array), which is how the kernel's
  regions receive it: the host reshapes the 128 biases to a row before the region. Reshaping 128 numbers to a 1 × 128 row
  moves nothing (entry `(0, q)` of the row is entry `q`), so this is `biasRelu` of the unreshaped bias.
-/
import proofs.«135520_j45586782880364_1_alg».proof.Proof.Spec
import Idealize.ShloMosaic.Lib.Pipeline.Value
import Idealize.ShloMosaic.Lib.ValueIdx

noncomputable section

namespace Cert.Gcn

open Idealize.ShloMosaic Idealize.ShloMosaic.TcCoe Cert.KernelIdeal Cert.KernelIdeal.Gen ValueIdx

/-- Add row `b` (1 × 128) to every row of `a`, then clamp below at zero. -/
def biasReluRow (a : Feat Ideal) (b : Vec Ideal S1x128 .f32) : Feat Ideal :=
  fun i => FloatOps.maximumf (F := Ideal) (FloatOps.addf (F := Ideal) (a i) (b (ix2 0 (i 1)))) (Scalar.ofBits (F := Ideal) .f32 0x00000000#32)

/-- With the row a reshaping of 128 biases it is `biasRelu`. -/
theorem biasReluRow_reshape (a : Feat Ideal) (b : Vec Ideal S128 .f32) :
    biasReluRow a (shapeCast S1x128 b shapeCasts_S128_S1x128) = biasRelu a b := by
  funext i
  unfold biasReluRow biasRelu
  rw [shapeCast_apply b shapeCasts_S128_S1x128 (ix2 0 (i 1)) (ix1 (i 1)) (by
    rw [Shape.rowMajor_val_one, Shape.rowMajor_val_two]
    show (i 1).val = 0 * 128 + (i 1).val
    omega)]

end Cert.Gcn

end
-- ==== Proof.BiasRelu1.lean ====
/-
  The first bias-and-clamp step, read as a value. The region walks the 100000 rows in 20 blocks of 5000; at block `t` its
  body adds the bias row (the same 1 × 128 block at every point) to rows `5000·t … 5000·t + 4999` of the aggregated
  features, clamps below at zero and writes the block back to the same rows. Everything is entry by entry, the 20 blocks
  tile the result, so the result array after the region is `biasReluRow` of the two arrays the region found.
-/
import proofs.«135520_j45586782880364_1_alg».proof.Proof.Gen.KernelIdeal.Frame
import proofs.«135520_j45586782880364_1_alg».proof.Proof.BiasRow
import Idealize.ShloMosaic.Lib.Pipeline.Value
import Idealize.ShloMosaic.Lib.ValueIdx

set_option maxRecDepth 16384

noncomputable section

namespace Cert.Gcn.BiasRelu1

open Idealize.ShloMosaic Idealize.ShloMosaic.TcCoe Idealize.SL.Sem Cert.KernelIdeal Cert.KernelIdeal.Gen
open Idealize.ShloMosaic.Pipeline (Dat)
open ValueIdx

/-! ## The body at an entry -/

/-- Entry `(r, q)` of what the body stores: the loaded entry plus the bias row's entry `q`, clamped below at zero (the two
    shape casts of the body are casts to the same shape). -/
theorem body_apply (x0 : Vec Ideal S5000x128 .f32) (x1 : Vec Ideal S1x128 .f32) (r : Fin 5000) (q : Fin 128) :
    k1_pay1 (F := Ideal) x0 x1 (ix2 r q)
      = FloatOps.maximumf (F := Ideal) (FloatOps.addf (F := Ideal) (x0 (ix2 r q)) (x1 (ix2 0 q))) (Scalar.ofBits (F := Ideal) .f32 0x00000000#32) := by
  unfold k1_pay1
  show FloatOps.maximumf (F := Ideal) (FloatOps.addf (F := Ideal) (shapeCast S5000x128 x0 shapeCasts_S5000x128_S5000x128 (ix2 r q))
      (broadcastTo S5000x128 (shapeCast S1x128 x1 shapeCasts_S1x128_S1x128) broadcasts_S1x128_S5000x128 (ix2 r q)))
      (Scalar.ofBits (F := Ideal) .f32 0x00000000#32) = _
  rw [shapeCast_self, shapeCast_self,
    broadcastTo_apply x1 broadcasts_S1x128_S5000x128 (ix2 r q) (ix2 0 q) (fun a => by
      match a with
      | ⟨0, _⟩ => rfl
      | ⟨1, _⟩ => rfl)]

/-! ## From the blocks to the array -/

variable (V : (c : Dev nD) → (b : Ref sig .tc) → Buf (Elt Ideal) ((c : Thread nD τ).loc b))

/-- The aggregated features and the bias row as the region finds them. -/
abbrev summed (c : Dev nD) : Vec Ideal S100000x128 .f32 := V c main_v43
abbrev biasRow (c : Dev nD) : Vec Ideal S1x128 .f32 := V c main_v44

theorem zeroOffsets : (![0, 0] : Fin 2 → Nat) = fun _ => 0 := funext fun a => by fin_cases a <;> rfl

/-- The printed block positions over the 20 grid points: the input block and the result block sit at block row `t`,
    column block 0; the bias row is always the one block at the origin. -/
theorem blockPositions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of `biasReluRow summed biasRow`. -/
theorem writtenBack (c : Dev nD) (t : Fin cfg1.N) :
    (dat1 V c).flushed 2 t = ((cfg1.win 2).blk t).view.read (Elt Ideal) (Cert.Gcn.biasReluRow (summed V c) (biasRow V c)) := by
  show (cfg1.win 2).cut (grid1.coords t) ((dat1 V c).after 2 t) = _
  rw [after1_2]
  unfold out1_2
  rw [View.canon_unit_zero zeroOffsets]
  simp only [View.ld_unit_zero (S := S5000x128) zeroOffsets, View.ld_unit_zero (S := S1x128) zeroOffsets]
  obtain ⟨e0, e1, e2, e3, e4, e5⟩ := blockPositions t
  funext j
  obtain ⟨r, q, rfl⟩ : ∃ (r : Fin 5000) (q : Fin 128), j = ix2 r q := ⟨j 0, j 1, eq_ix2 j⟩
  refine (body_apply _ _ r q).trans ?_
  change FloatOps.maximumf (F := Ideal) (FloatOps.addf (F := Ideal) (summed V c (((cfg1.win 0).blk t).view.emb (ix2 r q))) (biasRow V c (((cfg1.win 1).blk t).view.emb (ix2 0 q)))) (Scalar.ofBits (F := Ideal) .f32 0x00000000#32)
    = FloatOps.maximumf (F := Ideal) (FloatOps.addf (F := Ideal) (summed V c (((cfg1.win 2).blk t).view.emb (ix2 r q))) (biasRow V c (ix2 0 ((((cfg1.win 2).blk t).view.emb (ix2 r q)) 1)))) (Scalar.ofBits (F := Ideal) .f32 0x00000000#32)
  have hx : ((cfg1.win 0).blk t).view.emb (ix2 r q) = ((cfg1.win 2).blk t).view.emb (ix2 r q) := by
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * q.val = win1_2.index t (1 : Fin 2) * 128 + 1 * q.val; omega
  have hb : ((cfg1.win 1).blk t).view.emb (ix2 0 q) = ix2 0 ((((cfg1.win 2).blk t).view.emb (ix2 r q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hx, hb]
  rfl

/-- A row-and-column position of the result lies in block `t` exactly when each coordinate lies in the block's range. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The 20 blocks tile the result: row `i` lies in block `i / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := blockPositions t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the result array is `biasReluRow` of the aggregated features and the bias row the region found. -/
theorem result (c : Dev nD) : (dat1 V c).arrAt 2 cfg1.N = Cert.Gcn.biasReluRow (summed V c) (biasRow V c) :=
  (dat1 V c).arrAt_eq_of_cover 2 _ (fun t _ => writtenBack V c t) covered

end Cert.Gcn.BiasRelu1

end
-- ==== Proof.BiasRelu3.lean ====
/-
  The second bias-and-clamp step, read as a value. The region walks the 100000 rows in 20 blocks of 5000; at block `t` its
  body adds the bias row (the same 1 × 128 block at every point) to rows `5000·t … 5000·t + 4999` of the aggregated
  features, clamps below at zero and writes the block back to the same rows. Everything is entry by entry, the 20 blocks
  tile the result, so the result array after the region is `biasReluRow` of the two arrays the region found.
-/
import proofs.«135520_j45586782880364_1_alg».proof.Proof.Gen.KernelIdeal.Frame
import proofs.«135520_j45586782880364_1_alg».proof.Proof.BiasRow
import Idealize.ShloMosaic.Lib.Pipeline.Value
import Idealize.ShloMosaic.Lib.ValueIdx

set_option maxRecDepth 16384

noncomputable section

namespace Cert.Gcn.BiasRelu3

open Idealize.ShloMosaic Idealize.ShloMosaic.TcCoe Idealize.SL.Sem Cert.KernelIdeal Cert.KernelIdeal.Gen
open Idealize.ShloMosaic.Pipeline (Dat)
open ValueIdx

/-! ## The body at an entry -/

/-- Entry `(r, q)` of what the body stores: the loaded entry plus the bias row's entry `q`, clamped below at zero (the two
    shape casts of the body are casts to the same shape). -/
theorem body_apply (x0 : Vec Ideal S5000x128 .f32) (x1 : Vec Ideal S1x128 .f32) (r : Fin 5000) (q : Fin 128) :
    k3_pay1 (F := Ideal) x0 x1 (ix2 r q)
      = FloatOps.maximumf (F := Ideal) (FloatOps.addf (F := Ideal) (x0 (ix2 r q)) (x1 (ix2 0 q))) (Scalar.ofBits (F := Ideal) .f32 0x00000000#32) := by
  unfold k3_pay1
  show FloatOps.maximumf (F := Ideal) (FloatOps.addf (F := Ideal) (shapeCast S5000x128 x0 shapeCasts_S5000x128_S5000x128 (ix2 r q))
      (broadcastTo S5000x128 (shapeCast S1x128 x1 shapeCasts_S1x128_S1x128) broadcasts_S1x128_S5000x128 (ix2 r q)))
      (Scalar.ofBits (F := Ideal) .f32 0x00000000#32) = _
  rw [shapeCast_self, shapeCast_self,
    broadcastTo_apply x1 broadcasts_S1x128_S5000x128 (ix2 r q) (ix2 0 q) (fun a => by
      match a with
      | ⟨0, _⟩ => rfl
      | ⟨1, _⟩ => rfl)]

/-! ## From the blocks to the array -/

variable (V : (c : Dev nD) → (b : Ref sig .tc) → Buf (Elt Ideal) ((c : Thread nD τ).loc b))

/-- The aggregated features and the bias row as the region finds them. -/
abbrev summed (c : Dev nD) : Vec Ideal S100000x128 .f32 := V c main_v82
abbrev biasRow (c : Dev nD) : Vec Ideal S1x128 .f32 := V c main_v83

theorem zeroOffsets : (![0, 0] : Fin 2 → Nat) = fun _ => 0 := funext fun a => by fin_cases a <;> rfl

/-- The printed block positions over the 20 grid points: the input block and the result block sit at block row `t`,
    column block 0; the bias row is always the one block at the origin. -/
theorem blockPositions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of `biasReluRow summed biasRow`. -/
theorem writtenBack (c : Dev nD) (t : Fin cfg3.N) :
    (dat3 V c).flushed 2 t = ((cfg3.win 2).blk t).view.read (Elt Ideal) (Cert.Gcn.biasReluRow (summed V c) (biasRow V c)) := by
  show (cfg3.win 2).cut (grid3.coords t) ((dat3 V c).after 2 t) = _
  rw [after3_2]
  unfold out3_2
  rw [View.canon_unit_zero zeroOffsets]
  simp only [View.ld_unit_zero (S := S5000x128) zeroOffsets, View.ld_unit_zero (S := S1x128) zeroOffsets]
  obtain ⟨e0, e1, e2, e3, e4, e5⟩ := blockPositions t
  funext j
  obtain ⟨r, q, rfl⟩ : ∃ (r : Fin 5000) (q : Fin 128), j = ix2 r q := ⟨j 0, j 1, eq_ix2 j⟩
  refine (body_apply _ _ r q).trans ?_
  change FloatOps.maximumf (F := Ideal) (FloatOps.addf (F := Ideal) (summed V c (((cfg3.win 0).blk t).view.emb (ix2 r q))) (biasRow V c (((cfg3.win 1).blk t).view.emb (ix2 0 q)))) (Scalar.ofBits (F := Ideal) .f32 0x00000000#32)
    = FloatOps.maximumf (F := Ideal) (FloatOps.addf (F := Ideal) (summed V c (((cfg3.win 2).blk t).view.emb (ix2 r q))) (biasRow V c (ix2 0 ((((cfg3.win 2).blk t).view.emb (ix2 r q)) 1)))) (Scalar.ofBits (F := Ideal) .f32 0x00000000#32)
  have hx : ((cfg3.win 0).blk t).view.emb (ix2 r q) = ((cfg3.win 2).blk t).view.emb (ix2 r q) := by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * q.val = win3_2.index t (1 : Fin 2) * 128 + 1 * q.val; omega
  have hb : ((cfg3.win 1).blk t).view.emb (ix2 0 q) = ix2 0 ((((cfg3.win 2).blk t).view.emb (ix2 r q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [hx, hb]
  rfl

/-- A row-and-column position of the result lies in block `t` exactly when each coordinate lies in the block's range. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v84).slice (win3_2.rect t)).set ↔ _
  rw [View.set_slice_whole, Rect.mem_set_unit]
  exact Iff.rfl

/-- The 20 blocks tile the result: row `i` lies in block `i / 5000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := blockPositions t
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region the result array is `biasReluRow` of the aggregated features and the bias row the region found. -/
theorem result (c : Dev nD) : (dat3 V c).arrAt 2 cfg3.N = Cert.Gcn.biasReluRow (summed V c) (biasRow V c) :=
  (dat3 V c).arrAt_eq_of_cover 2 _ (fun t _ => writtenBack V c t) covered

end Cert.Gcn.BiasRelu3

end
-- ==== Proof.KernelValue.lean ====
/-
  The kernel program computes `gcn`. Boundary by boundary: the first region leaves the product of the features with the
  first weights; the host operations aggregate it over the graph and reshape the first bias to a row; the second region
  adds the bias and clamps; the third multiplies by the second weights; the host aggregates again and reshapes the second
  bias; the fourth region adds it and clamps. Each region's result is its whole-array function of the arrays it found,
  each host stretch is `aggregate` of the arrays it found, and the edge rows, weights and biases reach the places they are
  read unchanged from the launch. Composed, the result array at the last boundary is `gcn` of the six launch arguments.
-/
import proofs.«135520_j45586782880364_1_alg».proof.Proof.HostStretches
import proofs.«135520_j45586782880364_1_alg».proof.Proof.Linear0
import proofs.«135520_j45586782880364_1_alg».proof.Proof.Linear2
import proofs.«135520_j45586782880364_1_alg».proof.Proof.BiasRelu1
import proofs.«135520_j45586782880364_1_alg».proof.Proof.BiasRelu3
import proofs.«135520_j45586782880364_1_alg».proof.Proof.KernelRun

noncomputable section

namespace Cert.Gcn.Kernel

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The first layer's output as a function of the launch arguments. -/
abbrev hidden (c : Dev nD) : Cert.Gcn.Feat Ideal :=
  Cert.Gcn.biasRelu (Cert.Gcn.aggregate (Cert.Gcn.linear (m ((c : Thread nD τ).loc main_arg0)) (m ((c : Thread nD τ).loc main_arg2)))
    (Cert.Gcn.sources (m ((c : Thread nD τ).loc main_arg1))) (Cert.Gcn.targets (m ((c : Thread nD τ).loc main_arg1)))) (m ((c : Thread nD τ).loc main_arg3))

/-- After the first region: the features times the first weights. -/
theorem product1 (c : Dev nD) : W2 m ρ c (Proc.devRef .tc main_v7) = Cert.Gcn.linear (m ((c : Thread nD τ).loc main_arg0)) (m ((c : Thread nD τ).loc main_arg2)) := by
  refine (W2_arr m ρ c 2).trans ?_
  rw [Linear0.result (V1 m ρ) c]
  show Cert.Gcn.linear (W1 m ρ c (Proc.devRef .tc main_arg0)) (W1 m ρ c (Proc.devRef .tc main_arg2)) = _
  rw [Host.W1_arg0, Host.W1_arg2]

/-- After the second region: the first layer's output. -/
theorem layer1 (c : Dev nD) : W6 m ρ c (Proc.devRef .tc main_v45) = hidden m c := by
  refine (W6_arr m ρ c 2).trans ?_
  rw [BiasRelu1.result (V5 m ρ) c]
  show Cert.Gcn.biasReluRow (W5 m ρ c (Proc.devRef .tc main_v43)) (W5 m ρ c (Proc.devRef .tc main_v44)) = _
  rw [Host.W5_v43, Host.W5_v44, product1, Host.sources_at2, Host.targets_at2, Host.bias1_at2, Cert.Gcn.biasReluRow_reshape]

/-- After the third region: the first layer's output times the second weights. -/
theorem product2 (c : Dev nD) : W7 m ρ c (Proc.devRef .tc main_v46) = Cert.Gcn.linear (hidden m c) (m ((c : Thread nD τ).loc main_arg4)) := by
  refine (W7_arr m ρ c 2).trans ?_
  rw [Linear2.result (V6 m ρ) c]
  show Cert.Gcn.linear (W6 m ρ c (Proc.devRef .tc main_v45)) (W6 m ρ c (Proc.devRef .tc main_arg4)) = _
  rw [layer1, Host.weights2_at6]

/-- After the fourth region: the result array holds `gcn` of the launch arguments. -/
theorem value (c : Dev nD) : W11 m ρ c (Proc.devRef .tc main_v84)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 2).trans ?_
  rw [BiasRelu3.result (V10 m ρ) c]
  show Cert.Gcn.biasReluRow (W10 m ρ c (Proc.devRef .tc main_v82)) (W10 m ρ c (Proc.devRef .tc main_v83)) = _
  rw [Host.W10_v82, Host.W10_v83, product2, Host.sources_at7, Host.targets_at7, Host.bias2_at7, Cert.Gcn.biasReluRow_reshape]
  rfl

/-- Every weakly fair execution of the kernel program ends with the result array at `gcn` of the launch arguments and the
    six arguments unchanged. -/
theorem run : θ_run defs (onTc (τ := τ) (main (F := Ideal))) ⟨m, fun _ => 0, ρ⟩ (fun r => ∀ c : Dev nD,
      r.2.mem ((c.tc : Thread nD τ).loc main_v84) = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (run_out m ρ)

end Cert.Gcn.Kernel

end
-- ==== Proof.RefValue.lean ====
/-
  The reference computes `gcn`. Its operations are read one at a time: the two aggregations (degree, inverse square
  root, edge weights, gather, scale, scatter-add) are the same operations as `aggregate`, in the same order; each
  bias-and-clamp is `biasRelu` entry by entry (the bias reaches every row through two broadcasts, the clamp's zero
  through one); each product with a weight matrix is, on the extended reals, the sum over the 128 inner positions.
-/
import proofs.«135520_j45586782880364_1_alg».proof.Proof.RefRead
import proofs.«135520_j45586782880364_1_alg».proof.Proof.Spec
import Idealize.ShloMosaic.Lib.ValueIdx

noncomputable section

namespace Cert.Gcn.Ref

open Idealize.ShloMosaic Idealize.ShloMosaic.TcCoe Cert.ReferenceIdeal Cert.ReferenceIdeal.Gen Cert.ReferenceIdeal.ReadCopy
open ValueIdx

section AnyFloats

variable {F : FTy → Type} [FloatOps F]
variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F))

/-- The first aggregation: the reference's operations from the degree count to the scatter-add are `aggregate` of the
    first product, over the two rows of the edge list with the self loops appended. -/
theorem layer1_aggregate : val_main_v43 (F := F) x0 x1 x2
    = Cert.Gcn.aggregate (val_main_v7 (F := F) x0 x2) (Cert.Gcn.sources x1) (Cert.Gcn.targets x1) := rfl

/-- The second aggregation, over the same edges. -/
theorem layer2_aggregate : val_main_v84 (F := F) x0 x1 x2 x3 x4
    = Cert.Gcn.aggregate (val_main_v48 (F := F) x0 x1 x2 x3 x4) (Cert.Gcn.sources x1) (Cert.Gcn.targets x1) := rfl

/-- The first bias-and-clamp, entry by entry. -/
theorem layer1_bias : val_main_v47 (F := F) x0 x1 x2 x3 = Cert.Gcn.biasRelu (val_main_v43 (F := F) x0 x1 x2) x3 := by
  funext i
  have e : idx_main_v44 (idx_main_v45 i) = ix1 (i 1) := funext fun a => match a with | ⟨0, _⟩ => rfl
  rw [val_main_v47_apply, val_main_v46_apply, val_main_v45_apply, val_main_v44_apply, val_main_call1_v0_apply,
    val_main_call1_cst_apply, e]
  rfl

/-- The second bias-and-clamp, entry by entry. -/
theorem layer2_bias : val_main_v88 (F := F) x0 x1 x2 x3 x4 x5 = Cert.Gcn.biasRelu (val_main_v84 (F := F) x0 x1 x2 x3 x4) x5 := by
  funext i
  have e : idx_main_v85 (idx_main_v86 i) = ix1 (i 1) := funext fun a => match a with | ⟨0, _⟩ => rfl
  rw [val_main_v88_apply, val_main_v87_apply, val_main_v86_apply, val_main_v85_apply, val_main_call3_v0_apply,
    val_main_call3_cst_apply, e]
  rfl

end AnyFloats

section ExtendedReals

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- The first product with the weights is `linear`. -/
theorem layer1_linear : val_main_v7 (F := Ideal) x0 x2 = Cert.Gcn.linear x0 x2 := by
  funext i
  rw [val_main_v7_apply]
  unfold Cert.Gcn.linear
  refine Finset.sum_congr rfl fun k _ => ?_
  have el : lidx_main_v7 i k = ix2 (i 0) k := funext fun a => match a with | ⟨0, _⟩ => rfl | ⟨1, _⟩ => rfl
  have er : ridx_main_v7 i k = ix2 k (i 1) := funext fun a => match a with | ⟨0, _⟩ => rfl | ⟨1, _⟩ => rfl
  rw [el, er]
  rfl

/-- The second product with the weights is `linear` of the first layer's result. -/
theorem layer2_linear : val_main_v48 (F := Ideal) x0 x1 x2 x3 x4 = Cert.Gcn.linear (val_main_v47 (F := Ideal) x0 x1 x2 x3) x4 := by
  funext i
  rw [val_main_v48_apply]
  unfold Cert.Gcn.linear
  refine Finset.sum_congr rfl fun k _ => ?_
  have el : lidx_main_v48 i k = ix2 (i 0) k := funext fun a => match a with | ⟨0, _⟩ => rfl | ⟨1, _⟩ => rfl
  have er : ridx_main_v48 i k = ix2 k (i 1) := funext fun a => match a with | ⟨0, _⟩ => rfl | ⟨1, _⟩ => rfl
  rw [el, er]
  rfl

/-- The reference's result, as a function of its six arguments, is `gcn`. -/
theorem value : val_main_v88 (F := Ideal) x0 x1 x2 x3 x4 x5 = Cert.Gcn.gcn x0 x1 x2 x3 x4 x5 := by
  rw [layer2_bias, layer2_aggregate, layer2_linear, layer1_bias, layer1_aggregate, layer1_linear]
  rfl

end ExtendedReals

end Cert.Gcn.Ref

end
-- ==== Proof.lean ====
/-
  Two layers of graph convolution over 100000 nodes with 128 features and 1600000 edges plus a self loop at every node:
  each layer multiplies the features by a 128 × 128 weight matrix, sums over every node's incoming edges the source's
  row scaled by 1 / sqrt(degree(source) · degree(target)), adds a bias and clamps below at zero.

  The kernel program does the two matrix products and the two bias-and-clamp steps in four blocked regions (20 blocks of
  5000 rows each) and everything else on the host; the reference does everything on the host. The host parts are the same
  operations on both sides. On the extended reals a region's product (inputs shortened to a 16-bit float, which changes
  nothing there, accumulated from zero) is the same sum over the 128 inner positions as the host's product, in some order,
  and a sum there does not depend on the order; the bias-and-clamp regions are entry by entry what the host does. So both
  programs end with `Cert.Gcn.gcn` of the six arguments (Proof/Spec.lean): the kernel program by Proof/KernelValue.lean,
  the reference by Proof/RefValue.lean. No step uses that the inputs are finite.

  The kernel program's two frames are the generated ones; the reference's frame is its run with the result dropped;
  the idealization rewrote nothing, so `preserves` is `True`.
-/
import proofs.«135520_j45586782880364_1_alg».proof.Defs
import proofs.«135520_j45586782880364_1_alg».proof.Proof.Gen.Kernel
import proofs.«135520_j45586782880364_1_alg».proof.Proof.Gen.Kernel.Skeleton
import proofs.«135520_j45586782880364_1_alg».proof.Proof.Gen.Kernel.Launch
import proofs.«135520_j45586782880364_1_alg».proof.Proof.Gen.Kernel.Points
import proofs.«135520_j45586782880364_1_alg».proof.Proof.Gen.Kernel.Frame
import proofs.«135520_j45586782880364_1_alg».proof.Proof.Gen.KernelIdeal
import proofs.«135520_j45586782880364_1_alg».proof.Proof.Gen.KernelIdeal.Skeleton
import proofs.«135520_j45586782880364_1_alg».proof.Proof.Gen.KernelIdeal.Launch
import proofs.«135520_j45586782880364_1_alg».proof.Proof.Gen.KernelIdeal.Points
import proofs.«135520_j45586782880364_1_alg».proof.Proof.Gen.KernelIdeal.Frame
import proofs.«135520_j45586782880364_1_alg».proof.Proof.Gen.ReferenceIdeal
import proofs.«135520_j45586782880364_1_alg».proof.Proof.Gen.Pre_finite_inputs
import proofs.«135520_j45586782880364_1_alg».proof.Proof.KernelValue
import proofs.«135520_j45586782880364_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result forgotten. -/
theorem frame_reference : Cert.frame_ReferenceIdeal := fun m ρ _ =>
  (θ_run Cert.ReferenceIdeal.defs _ _).mono (fun _ h c => (h c).2) (Cert.ReferenceIdeal.RunCopy.run (F := Ideal) m ρ)

theorem preserves : Cert.preserves_Kernel_KernelIdeal := trivial

/-- From memories that agree on the six arguments both programs end with `gcn` of them. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), Cert.Gcn.Kernel.run m ρ, ?_⟩
  refine (θ_run Cert.ReferenceIdeal.defs _ _).mono (fun _ h c => ⟨(h c).1.trans ?_, (h c).2⟩)
    (Cert.ReferenceIdeal.RunCopy.run (F := Ideal) m' ρ')
  rw [Cert.ReferenceIdeal.ReadCopy.val_main_v88_eq, Cert.Gcn.Ref.value, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
